-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩
abbrev S50000x64 : Shape := ⟨2, ![50000, 64]⟩
abbrev S5000x64 : Shape := ⟨2, ![5000, 64]⟩

abbrev nBuf : Space → Nat
  | .hbm => 40
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S50000x64 : Shape := ⟨2, ![50000, 64]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Spec.lean ====
/-
  The mathematics of the two dense layers, over the extended reals.

  A matrix product `A · W` has at row `o` and column `t` the entry `∑ c, A[o, c] · W[c, t]`; the first layer clamps
  it below at zero. Both the host's product and the accelerator's product into a zero accumulator are this one
  function of their operands, whatever the number of rows: a block of rows of `A` gives the same block of rows of
  the product.
-/
import Idealize.ShloMosaic.PureOps.Ideal.Laws
import Idealize.ShloMosaic.Lib.ValueIdx
import proofs.«166620_j34660386078859_1_alg».proof.Proof.LibMatmulAt

noncomputable section

open scoped BigOperators

namespace Cert.Dense

open Idealize.ShloMosaic Idealize.ShloMosaic.ValueIdx

variable {M K N : ℕ}

/-- The product of an `M × K` and a `K × N` matrix of extended reals. -/
def matProd (A : FVec Ideal ⟨2, ![M, K]⟩ .f32) (W : FVec Ideal ⟨2, ![K, N]⟩ .f32) : FVec Ideal ⟨2, ![M, N]⟩ .f32 :=
  fun i => ∑ c : Fin K, A (ix2 (i 0) c) * W (ix2 c (i 1))

/-- The product clamped below at zero, entry by entry. -/
def reluProd (A : FVec Ideal ⟨2, ![M, K]⟩ .f32) (W : FVec Ideal ⟨2, ![K, N]⟩ .f32) : FVec Ideal ⟨2, ![M, N]⟩ .f32 :=
  fun i => max (matProd A W i) 0

theorem matProd_at (A : FVec Ideal ⟨2, ![M, K]⟩ .f32) (W : FVec Ideal ⟨2, ![K, N]⟩ .f32) (o : Fin M) (t : Fin N) :
    matProd A W (ix2 o t) = ∑ c : Fin K, A (ix2 o c) * W (ix2 c t) := rfl

/-- The accelerator's product into the zero accumulator is `matProd`. -/
theorem matmul_zero_eq (D : DotDims ⟨2, ![M, K]⟩ ⟨2, ![K, N]⟩ ⟨2, ![M, N]⟩) {φ₁ φ₂ : FTy}
    (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (W : FVec Ideal ⟨2, ![K, N]⟩ φ₂) :
    FloatOps.matmul D prec A W (constant ⟨2, ![M, N]⟩ .f32 0x00000000#32) = matProd A W := by
  funext i
  obtain ⟨o, t, rfl⟩ : ∃ (o : Fin M) (t : Fin N), i = ix2 o t := ⟨i 0, i 1, eq_ix2 i⟩
  exact Cert.LibMatmulAt.matmul_zero_at D hlc hrc hlb hrb hln hrn prec A W o t

/-- The host's product is `matProd`: the same sum over the one contracted axis, re-indexed by its coordinate. -/
theorem hostDot_eq (D : DotDims ⟨2, ![M, K]⟩ ⟨2, ![K, N]⟩ ⟨2, ![M, N]⟩)
    (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ .f32) (W : FVec Ideal ⟨2, ![K, N]⟩ .f32) :
    Host.dotGeneral D prec A W = matProd A W := by
  funext i
  obtain ⟨o, t, rfl⟩ : ∃ (o : Fin M) (t : Fin N), i = ix2 o t := ⟨i 0, i 1, eq_ix2 i⟩
  show FloatOps.dotGeneral D prec .single A W (ix2 o t) = _
  rw [Ideal.dotGeneral_apply, matProd_at,
    ← Equiv.sum_comp (contrEquiv1 D K (Cert.LibMatmulAt.contr_rank D hlc) (Cert.LibMatmulAt.contr_size D hlc)).symm]
  refine Finset.sum_congr rfl fun k _ => ?_
  have hk := contrEquiv1_symm_val D K (Cert.LibMatmulAt.contr_rank D hlc) (Cert.LibMatmulAt.contr_size D hlc) k
  have el : D.lhsIdx (ix2 o t) ((contrEquiv1 D K (Cert.LibMatmulAt.contr_rank D hlc) (Cert.LibMatmulAt.contr_size D hlc)).symm k) = ix2 o k :=
    funext fun a => Fin.ext (by
      match a with
      | ⟨0, _⟩ => exact Cert.LibMatmulAt.lhs_row D hlb hln _ _
      | ⟨1, _⟩ => exact (D.lhsIdx_val_of_single hlc _ _).trans hk)
  have er : D.rhsIdx (ix2 o t) ((contrEquiv1 D K (Cert.LibMatmulAt.contr_rank D hlc) (Cert.LibMatmulAt.contr_size D hlc)).symm k) = ix2 k t :=
    funext fun a => Fin.ext (by
      match a with
      | ⟨0, _⟩ => exact (D.rhsIdx_val_of_single hrc _ _).trans hk
      | ⟨1, _⟩ => exact Cert.LibMatmulAt.rhs_col D hrb hlb hln hrn _ _)
  rw [el, er]

/-- The clamp of the host's product against the zero splat is `reluProd`. -/
theorem hostRelu_eq (D : DotDims ⟨2, ![M, K]⟩ ⟨2, ![K, N]⟩ ⟨2, ![M, N]⟩)
    (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ .f32) (W : FVec Ideal ⟨2, ![K, N]⟩ .f32)
    (hz : (⟨0, ![]⟩ : Shape).BroadcastsInDim ⟨2, ![M, N]⟩ (![] : Fin 0 → Fin 2)) :
    maximumf (Host.dotGeneral D prec A W) (broadcastInDim ⟨2, ![M, N]⟩ ![] hz (constant (F := Ideal) ⟨0, ![]⟩ .f32 0x00000000#32))
      = reluProd A W := by
  rw [hostDot_eq D hlc hrc hlb hrb hln hrn]
  funext i
  rw [maximumf_apply]
  show max (matProd A W i) (Ideal.ofBits .f32 0x00000000#32) = _
  rw [Ideal.ofBits_zero_f32]
  rfl

end Cert.Dense

/-! ## The sparse aggregation

Both layers are preceded by the same aggregation over the graph's edges: gather the rows of a node matrix at the
(wrapped) column indices, scale each by its edge value, and add each into the row its row index names. It is carried
as ONE function of the node matrix; nothing here looks inside it. -/

namespace Cert.Sparse

open Idealize.ShloMosaic

abbrev Nodes : Shape := ⟨2, ![50000, 128]⟩
abbrev Edges : Shape := ⟨1, ![800000]⟩
abbrev EdgeCol : Shape := ⟨2, ![800000, 1]⟩
abbrev EdgeRows : Shape := ⟨2, ![800000, 128]⟩
abbrev Point : Shape := ⟨0, ![]⟩

/-- `out[i] = ∑_{e : row e = i} vals e · mat[col e]`, as the host computes it. -/
def aggregate (sc : ScatterDims Nodes EdgeCol EdgeRows) (ga : GatherDims Nodes EdgeCol EdgeRows)
    (hcol : Edges.BroadcastsInDim EdgeCol (![0] : Fin 1 → Fin EdgeCol.rank))
    (hsplat : Point.BroadcastsInDim Edges (![] : Fin 0 → Fin Edges.rank))
    (hrows : EdgeCol.BroadcastsInDim EdgeRows (![0, 1] : Fin 2 → Fin EdgeRows.rank))
    (hzero : Point.BroadcastsInDim Nodes (![] : Fin 0 → Fin Nodes.rank))
    (row col : (⟨Edges, .i32⟩ : BufTy).Contents (Elt Ideal)) (vals : (⟨Edges, .f32⟩ : BufTy).Contents (Elt Ideal))
    (mat : (⟨Nodes, .f32⟩ : BufTy).Contents (Elt Ideal)) : (⟨Nodes, .f32⟩ : BufTy).Contents (Elt Ideal) :=
  Host.scatterAdd (F := Ideal) sc (broadcastInDim Nodes ![] hzero (constant (F := Ideal) Point .f32 0x00000000#32))
    (broadcastInDim EdgeCol ![0] hcol row)
    (mulf (F := Ideal) (broadcastInDim EdgeRows ![0, 1] hrows (broadcastInDim EdgeCol ![0] hcol vals))
      (Host.gather ga mat (broadcastInDim EdgeCol ![0] hcol
        (select (cmpi .slt col (broadcastInDim Edges ![] hsplat (constantI Point 32 0#32)))
          (addi col (broadcastInDim Edges ![] hsplat (constantI Point 32 50000#32))) col))))

end Cert.Sparse

end
-- ==== Proof.Payload.lean ====
/-
  What each kernel body stores, as a function of the blocks it loads: the first layer's body stores the clamped
  product of its row block with the weight matrix, the second layer's body the plain product. A change of float
  format is the identity on the extended reals and the reshape is between equal shapes, so only the product (and
  the clamp) is left.
-/
import proofs.«166620_j34660386078859_1_alg».proof.Proof.Gen.KernelIdeal.Skeleton
import proofs.«166620_j34660386078859_1_alg».proof.Proof.Spec
import Idealize.ShloMosaic.Lib.Pipeline.Value

noncomputable section

namespace Cert.KernelIdeal.Body

open Idealize.ShloMosaic Idealize.ShloMosaic.ValueIdx Cert.KernelIdeal Cert.KernelIdeal.Gen Cert.Dense

/-- The first layer's stored block: `max (x · w) 0`, entry by entry. -/
theorem pay0_eq (x : Vec Ideal S5000x128 .f32) (w : Vec Ideal S128x128 .f32) :
    k0_pay1 (F := Ideal) x w = reluProd x w := by
  have e : k0_pay1 (F := Ideal) x w
      = maximumf (FloatOps.matmul (φ₁ := .bf16) (φ₂ := .bf16) dot_S5000x128_S128x128_S5000x128_1_0_0_1_n_n none x w (constant S5000x128 .f32 0x00000000#32))
          (broadcast S5000x128 (Ideal.ofBits .f32 0x00000000#32)) := by
    unfold k0_pay1
    dsimp only
    rw [shapeCast_self]
    rfl
  rw [e, matmul_zero_eq dot_S5000x128_S128x128_S5000x128_1_0_0_1_n_n rfl rfl rfl rfl rfl rfl]
  funext i
  rw [maximumf_apply, broadcast_apply, Ideal.ofBits_zero_f32]
  rfl

/-- The second layer's stored block: `x · w`. -/
theorem pay1_eq (x : Vec Ideal S5000x128 .f32) (w : Vec Ideal S128x64 .f32) :
    k1_pay1 (F := Ideal) x w = matProd x w := by
  have e : k1_pay1 (F := Ideal) x w
      = FloatOps.matmul (φ₁ := .bf16) (φ₂ := .bf16) dot_S5000x128_S128x64_S5000x64_1_0_0_1_n_n none x w (constant S5000x64 .f32 0x00000000#32) := by
    unfold k1_pay1
    dsimp only
    rw [shapeCast_self]
    rfl
  rw [e, matmul_zero_eq dot_S5000x128_S128x64_S5000x64_1_0_0_1_n_n rfl rfl rfl rfl rfl rfl]

end Cert.KernelIdeal.Body

end
-- ==== Proof.Layers.lean ====
/-
  Each dense layer as a map of whole arrays. The grid cuts the 50000 rows into ten blocks of 5000; the point `t`
  loads rows `5000 t … 5000 t + 4999` of the input, the whole weight matrix, and writes the same rows of the
  output. A row of a matrix product depends only on that row of the left operand, so what point `t` writes is block
  `t` of the product of the whole arrays, and the ten blocks cover the output: after the region the output array
  holds the (clamped) product of the input array as the region found it with the weight matrix.
-/
import proofs.«166620_j34660386078859_1_alg».proof.Proof.Gen.KernelIdeal.Frame
import proofs.«166620_j34660386078859_1_alg».proof.Proof.Payload
import Idealize.ShloMosaic.Lib.Pipeline.Value

set_option maxRecDepth 16384

noncomputable section

namespace Cert.KernelIdeal.Layer

open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

theorem zeros : (![0, 0] : Fin 2 → Nat) = fun _ => 0 := funext fun a => by fin_cases a <;> rfl

/-! ## The first layer -/

/-- Where the first region's windows sit at point `t`: the row windows at block row `t`, the weights at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` read at `x` is the input array at row `5000 t + x₀`. -/
theorem rows0 (c : Dev nD) (t : Fin cfg0.N) (x : S5000x128.Idx) (i : S50000x128.Idx)
    (h0 : (i 0).val = 5000 * t.val + (x 0).val) (h1 : (i 1).val = (x 1).val) :
    (iblk0 V c 0 t : Vec Ideal S5000x128 .f32) x = (V c main_v12 : S50000x128.Idx → Elt Ideal .f32) i := by
  obtain ⟨e0, e1, -⟩ := where0 t
  unfold iblk0
  rw [View.read_apply]
  show V c main_v12 _ = V c main_v12 _
  refine congrArg _ (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The weight block at any point is the weight array. -/
theorem weights0 (c : Dev nD) (t : Fin cfg0.N) (x i : S128x128.Idx)
    (h0 : (i 0).val = (x 0).val) (h1 : (i 1).val = (x 1).val) :
    (iblk0 V c 1 t : Vec Ideal S128x128 .f32) x = (V c main_arg4 : S128x128.Idx → Elt Ideal .f32) i := by
  obtain ⟨-, -, e2, e3, -⟩ := where0 t
  unfold iblk0
  rw [View.read_apply]
  show V c main_arg4 _ = V c main_arg4 _
  refine congrArg _ (funext fun a => Fin.ext ?_)
  match a with
  | ⟨0, _⟩ => show win0_1.index t (0 : Fin 2) * 128 + 1 * (x 0).val = (i 0).val; rw [e2, h0]; omega
  | ⟨1, _⟩ => show win0_1.index t (1 : Fin 2) * 128 + 1 * (x 1).val = (i 1).val; rw [e3, h1]; omega

/-- What point `t` writes back is block `t` of the clamped product of the whole arrays. -/
theorem written0 (c : Dev nD) (t : Fin cfg0.N) :
    (dat0 V c).flushed 2 t = ((cfg0.win 2).blk t).view.read (Elt Ideal) (reluProd (V c main_v12) (V c main_arg4)) := by
  show (cfg0.win 2).cut (grid0.coords t) ((dat0 V c).after 2 t) = _
  rw [after0_2]
  unfold out0_2
  rw [View.canon_unit_zero zeros]
  simp only [View.ld_unit_zero (S := S5000x128) zeros, View.ld_unit_zero (S := S128x128) zeros]
  rw [Body.pay0_eq]
  obtain ⟨-, -, -, -, e4, e5⟩ := where0 t
  funext j
  show reluProd (iblk0 V c 0 t : Vec Ideal S5000x128 .f32) (iblk0 V c 1 t : Vec Ideal S128x128 .f32) j
    = reluProd (V c main_v12) (V c main_arg4) (((cfg0.win 2).blk t).view.emb j)
  simp only [reluProd, matProd]
  refine congrArg (fun s => max s (0 : EReal)) (Finset.sum_congr rfl fun k _ => ?_)
  have hA := rows0 V c t (ix2 (j 0) k) (ix2 ((((cfg0.win 2).blk t).view.emb j) 0) k)
    (by show win0_2.index t (0 : Fin 2) * 5000 + 1 * (j 0).val = 5000 * t.val + (j 0).val; rw [e4]; omega) rfl
  have hW := weights0 V c t (ix2 k (j 1)) (ix2 k ((((cfg0.win 2).blk t).view.emb j) 1)) rfl
    (by show win0_2.index t (1 : Fin 2) * 128 + 1 * (j 1).val = (j 1).val; rw [e5]; omega)
  rw [hA, hW]

/-- An index of the output array lies in point `t`'s block exactly when each coordinate is in the block's range. -/
theorem mem_out0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v13).slice (win0_2.rect t)).set ↔ _
  rw [View.set_slice_whole, Rect.mem_set_unit]
  exact Iff.rfl

/-- After the first region its output array is the clamped product of its input array with the weights: row `r`
    is written by point `r / 5000`. -/
theorem final0 (c : Dev nD) : (dat0 V c).arrAt 2 cfg0.N = reluProd (V c main_v12) (V c main_arg4) :=
  (dat0 V c).arrAt_eq_of_cover 2 (reluProd (V c main_v12) (V c main_arg4)) (fun t _ => written0 V c t) fun i => by
    have hi : (i 0).val < 50000 := (i 0).isLt
    have hj : (i 1).val < 128 := (i 1).isLt
    have hN : cfg0.N = 10 := N_0
    obtain ⟨t, ht⟩ : ∃ t : Fin cfg0.N, t.val = (i 0).val / 5000 := ⟨⟨(i 0).val / 5000, by rw [hN]; omega⟩, rfl⟩
    obtain ⟨-, -, -, -, e4, e5⟩ := where0 t
    refine ⟨t, flush0_2 t, ?_⟩
    rw [mem_out0]
    intro a
    match a with
    | ⟨0, _⟩ =>
      show win0_2.index t (0 : Fin 2) * 5000 ≤ (i 0).val ∧ (i 0).val < win0_2.index t (0 : Fin 2) * 5000 + 5000
      rw [e4, ht]; omega
    | ⟨1, _⟩ =>
      show win0_2.index t (1 : Fin 2) * 128 ≤ (i 1).val ∧ (i 1).val < win0_2.index t (1 : Fin 2) * 128 + 128
      rw [e5]; omega

/-! ## The second layer -/

/-- Where the second region's windows sit at point `t`. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t` read at `x` is the input array at row `5000 t + x₀`. -/
theorem rows1 (c : Dev nD) (t : Fin cfg1.N) (x : S5000x128.Idx) (i : S50000x128.Idx)
    (h0 : (i 0).val = 5000 * t.val + (x 0).val) (h1 : (i 1).val = (x 1).val) :
    (iblk1 V c 0 t : Vec Ideal S5000x128 .f32) x = (V c main_v26 : S50000x128.Idx → Elt Ideal .f32) i := by
  obtain ⟨e0, e1, -⟩ := where1 t
  unfold iblk1
  rw [View.read_apply]
  show V c main_v26 _ = V c main_v26 _
  refine congrArg _ (funext fun a => Fin.ext ?_)
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The weight block at any point is the weight array. -/
theorem weights1 (c : Dev nD) (t : Fin cfg1.N) (x i : S128x64.Idx)
    (h0 : (i 0).val = (x 0).val) (h1 : (i 1).val = (x 1).val) :
    (iblk1 V c 1 t : Vec Ideal S128x64 .f32) x = (V c main_arg5 : S128x64.Idx → Elt Ideal .f32) i := by
  obtain ⟨-, -, e2, e3, -⟩ := where1 t
  unfold iblk1
  rw [View.read_apply]
  show V c main_arg5 _ = V c main_arg5 _
  refine congrArg _ (funext fun a => Fin.ext ?_)
  match a with
  | ⟨0, _⟩ => show win1_1.index t (0 : Fin 2) * 128 + 1 * (x 0).val = (i 0).val; rw [e2, h0]; omega
  | ⟨1, _⟩ => show win1_1.index t (1 : Fin 2) * 64 + 1 * (x 1).val = (i 1).val; rw [e3, h1]; omega

/-- What point `t` writes back is block `t` of the product of the whole arrays. -/
theorem written1 (c : Dev nD) (t : Fin cfg1.N) :
    (dat1 V c).flushed 2 t = ((cfg1.win 2).blk t).view.read (Elt Ideal) (matProd (V c main_v26) (V c main_arg5)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S128x64) zeros]
  rw [Body.pay1_eq]
  obtain ⟨-, -, -, -, e4, e5⟩ := where1 t
  funext j
  show matProd (iblk1 V c 0 t : Vec Ideal S5000x128 .f32) (iblk1 V c 1 t : Vec Ideal S128x64 .f32) j
    = matProd (V c main_v26) (V c main_arg5) (((cfg1.win 2).blk t).view.emb j)
  simp only [matProd]
  refine Finset.sum_congr rfl fun k _ => ?_
  have hA := rows1 V c t (ix2 (j 0) k) (ix2 ((((cfg1.win 2).blk t).view.emb j) 0) k)
    (by show win1_2.index t (0 : Fin 2) * 5000 + 1 * (j 0).val = 5000 * t.val + (j 0).val; rw [e4]; omega) rfl
  have hW := weights1 V c t (ix2 k (j 1)) (ix2 k ((((cfg1.win 2).blk t).view.emb j) 1)) rfl
    (by show win1_2.index t (1 : Fin 2) * 64 + 1 * (j 1).val = (j 1).val; rw [e5]; omega)
  rw [hA, hW]

/-- An index of the output array lies in point `t`'s block exactly when each coordinate is in the block's range. -/
theorem mem_out1 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v27).slice (win1_2.rect t)).set ↔ _
  rw [View.set_slice_whole, Rect.mem_set_unit]
  exact Iff.rfl

/-- After the second region its output array is the product of its input array with the weights. -/
theorem final1 (c : Dev nD) : (dat1 V c).arrAt 2 cfg1.N = matProd (V c main_v26) (V c main_arg5) :=
  (dat1 V c).arrAt_eq_of_cover 2 (matProd (V c main_v26) (V c main_arg5)) (fun t _ => written1 V c t) fun i => by
    have hi : (i 0).val < 50000 := (i 0).isLt
    have hj : (i 1).val < 64 := (i 1).isLt
    have hN : cfg1.N = 10 := N_1
    obtain ⟨t, ht⟩ : ∃ t : Fin cfg1.N, t.val = (i 0).val / 5000 := ⟨⟨(i 0).val / 5000, by rw [hN]; omega⟩, rfl⟩
    obtain ⟨-, -, -, -, e4, e5⟩ := where1 t
    refine ⟨t, flush1_2 t, ?_⟩
    rw [mem_out1]
    intro a
    match a with
    | ⟨0, _⟩ =>
      show win1_2.index t (0 : Fin 2) * 5000 ≤ (i 0).val ∧ (i 0).val < win1_2.index t (0 : Fin 2) * 5000 + 5000
      rw [e4, ht]; omega
    | ⟨1, _⟩ =>
      show win1_2.index t (1 : Fin 2) * 64 ≤ (i 1).val ∧ (i 1).val < win1_2.index t (1 : Fin 2) * 64 + 64
      rw [e5]; omega

end Cert.KernelIdeal.Layer

end
-- ==== Proof.KernelValue.lean ====
/-
  The kernel program's result as one function of its arguments. The fold through @main has five boundaries: the
  launch, the first region's entry (the aggregation of the node features has been written), its exit (the first
  layer's output), the second region's entry (the aggregation of that output), and its exit (the result). Reading
  the fold back boundary by boundary gives `result = (agg (relu ((agg x) · W1))) · W2`.
-/
import proofs.«166620_j34660386078859_1_alg».proof.Proof.Layers
import proofs.«166620_j34660386078859_1_alg».proof.Proof.KernelRun
import Idealize.ShloMosaic.Lib.StableHlo.Run

set_option maxRecDepth 16384

noncomputable section

namespace Cert.KernelIdeal.Whole

open Idealize.ShloMosaic Idealize.ShloMosaic.TcCoe Idealize.SL.Sem
open Cert.KernelIdeal Cert.KernelIdeal.Gen Cert.Dense Cert.Sparse

variable (m : (ℓ : Loc nD τ sig) → Buf (Elt Ideal) ℓ) (ρ : Dev nD → PrngReg)

/-- The aggregation over the edges the launch memory holds on core `c`. -/
abbrev agg (c : Dev nD) : (⟨Nodes, .f32⟩ : BufTy).Contents (Elt Ideal) → (⟨Nodes, .f32⟩ : BufTy).Contents (Elt Ideal) :=
  aggregate scatter_S50000x128_S800000x1_S800000x128_1_0_0_1 gather_S50000x128_S800000x1_S800000x128_1_0_n_n_0_1_1128
    Facts₀.bcast_S800000_S800000x1_0 Facts₀.bcast_S_S800000 Facts₀.bcast_S800000x1_S800000x128_0_1 Facts₀.bcast_S_S50000x128
    (m ((c.tc : Thread nD τ).loc main_arg1)) (m ((c.tc : Thread nD τ).loc main_arg2)) (m ((c.tc : Thread nD τ).loc main_arg3))

/-- The first region is entered with the aggregated node features in its input array … -/
theorem entry0_in (c : Dev nD) : V1 m ρ c main_v12 = agg m c (m ((c.tc : Thread nD τ).loc main_arg0)) := by
  show StableHlo.after hostOps0 (W0 m ρ c) (Proc.devRef .tc main_v12) = _
  after_results
  all_goals rfl

/-- … and the first layer's weights as launched. -/
theorem entry0_w (c : Dev nD) : V1 m ρ c main_arg4 = m ((c.tc : Thread nD τ).loc main_arg4) := by
  show StableHlo.after hostOps0 (W0 m ρ c) (Proc.devRef .tc main_arg4) = _
  after_results
  all_goals rfl

/-- It leaves the clamped product of the aggregated features with the weights in its output array. -/
theorem exit0 (c : Dev nD) : W2 m ρ c (Proc.devRef .tc main_v13)
    = reluProd (agg m c (m ((c.tc : Thread nD τ).loc main_arg0))) (m ((c.tc : Thread nD τ).loc main_arg4)) :=
  (W2_arr m ρ c 2).trans ((Layer.final0 (V1 m ρ) c).trans (by rw [entry0_in, entry0_w]))

/-- The first region writes none of the edge arrays nor the second layer's weights. -/
theorem exit0_arg1 (c : Dev nD) : W2 m ρ c (Proc.devRef .tc main_arg1) = m ((c.tc : Thread nD τ).loc main_arg1) := by
  rw [W2_of_ne m ρ c main_arg1 (by decide)]
  show StableHlo.after hostOps0 (W0 m ρ c) (Proc.devRef .tc main_arg1) = _
  after_results
  all_goals rfl
theorem exit0_arg2 (c : Dev nD) : W2 m ρ c (Proc.devRef .tc main_arg2) = m ((c.tc : Thread nD τ).loc main_arg2) := by
  rw [W2_of_ne m ρ c main_arg2 (by decide)]
  show StableHlo.after hostOps0 (W0 m ρ c) (Proc.devRef .tc main_arg2) = _
  after_results
  all_goals rfl
theorem exit0_arg3 (c : Dev nD) : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results
  all_goals rfl
theorem exit0_arg5 (c : Dev nD) : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results
  all_goals rfl

/-- The second region is entered with the aggregation of the first layer's output in its input array … -/
theorem entry1_in (c : Dev nD) : V3 m ρ c main_v26 = agg m c (W2 m ρ c (Proc.devRef .tc main_v13)) := by
  show StableHlo.after hostOps1 (W2 m ρ c) (Proc.devRef .tc main_v26) = _
  after_results
  rw [exit0_arg1, exit0_arg2, exit0_arg3]
  rfl

/-- … and the second layer's weights as launched. -/
theorem entry1_w (c : Dev nD) : V3 m ρ c main_arg5 = m ((c.tc : Thread nD τ).loc main_arg5) := by
  show StableHlo.after hostOps1 (W2 m ρ c) (Proc.devRef .tc main_arg5) = _
  after_results
  exact exit0_arg5 m ρ c

/-- The result array after the run. -/
theorem result_eq (c : Dev nD) : W4 m ρ c (Proc.devRef .tc main_v27)
    = matProd (agg m c (reluProd (agg m c (m ((c.tc : Thread nD τ).loc main_arg0))) (m ((c.tc : Thread nD τ).loc main_arg4))))
        (m ((c.tc : Thread nD τ).loc main_arg5)) :=
  (W4_arr m ρ c 2).trans ((Layer.final1 (V3 m ρ) c).trans (by rw [entry1_in, entry1_w, exit0]))

/-- Every weakly fair execution of the kernel program ends with the result array at that function of the
    arguments, the arguments as launched. -/
theorem run : θ_run defs (onTc (τ := τ) (main (F := Ideal))) ⟨m, fun _ => 0, ρ⟩ (fun r => ∀ c : Dev nD,
      r.2.mem ((c.tc : Thread nD τ).loc main_v27)
        = matProd (agg m c (reluProd (agg m c (m ((c.tc : Thread nD τ).loc main_arg0))) (m ((c.tc : Thread nD τ).loc main_arg4))))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Run.run_result m ρ)

end Cert.KernelIdeal.Whole

end
-- ==== Proof.RefValue.lean ====
/-
  The reference program's result as the same function of its arguments: its host products are the sums `matProd`
  reads, its clamp against the zero splat is `reluProd`, and the aggregation before each is the one function
  `aggregate`, untouched.
-/
import proofs.«166620_j34660386078859_1_alg».proof.Proof.Gen.ReferenceIdeal.Run
import proofs.«166620_j34660386078859_1_alg».proof.Proof.Spec

noncomputable section

namespace Cert.ReferenceIdeal.Whole

open Idealize.ShloMosaic Idealize.ShloMosaic.TcCoe Idealize.SL.Sem
open Cert.ReferenceIdeal Cert.ReferenceIdeal.Gen Cert.Dense Cert.Sparse

variable (m : (ℓ : Loc nD τ sig) → Buf (Elt Ideal) ℓ) (ρ : Dev nD → PrngReg)

/-- The aggregation over the edges the launch memory holds on core `c`. -/
abbrev agg (c : Dev nD) : (⟨Nodes, .f32⟩ : BufTy).Contents (Elt Ideal) → (⟨Nodes, .f32⟩ : BufTy).Contents (Elt Ideal) :=
  aggregate scatter_S50000x128_S800000x1_S800000x128_1_0_0_1 gather_S50000x128_S800000x1_S800000x128_1_0_n_n_0_1_1128
    Facts₀.bcast_S800000_S800000x1_0 Facts₀.bcast_S_S800000 Facts₀.bcast_S800000x1_S800000x128_0_1 Facts₀.bcast_S_S50000x128
    (m ((c.tc : Thread nD τ).loc main_arg1)) (m ((c.tc : Thread nD τ).loc main_arg2)) (m ((c.tc : Thread nD τ).loc main_arg3))

/-- The two layers as the host computes them are the two layers of the specification. -/
theorem layers_eq (c : Dev nD) (x : (⟨Nodes, .f32⟩ : BufTy).Contents (Elt Ideal))
    (w1 : (⟨S128x128, .f32⟩ : BufTy).Contents (Elt Ideal)) (w2 : (⟨S128x64, .f32⟩ : BufTy).Contents (Elt Ideal)) :
    Host.dotGeneral (φ₁ := .f32) (φ₂ := .f32) dot_S50000x128_S128x64_S50000x64_1_0_0_1_n_n none
        (agg m c (maximumf (Host.dotGeneral (φ₁ := .f32) (φ₂ := .f32) dot_S50000x128_S128x128_S50000x128_1_0_0_1_n_n none (agg m c x) w1)
          (broadcastInDim S50000x128 ![] Facts₀.bcast_S_S50000x128 (constant (F := Ideal) S_ .f32 0x00000000#32)))) w2
      = matProd (agg m c (reluProd (agg m c x) w1)) w2 := by
  rw [hostRelu_eq dot_S50000x128_S128x128_S50000x128_1_0_0_1_n_n rfl rfl rfl rfl rfl rfl,
    hostDot_eq dot_S50000x128_S128x64_S50000x64_1_0_0_1_n_n rfl rfl rfl rfl rfl rfl]

/-- Every weakly fair execution of the reference program ends with its result array at that function of the
    arguments, the arguments as launched. -/
theorem run : θ_run defs (onTc (τ := τ) (main (F := Ideal))) ⟨m, fun _ => 0, ρ⟩ (fun r => ∀ c : Dev nD,
      r.2.mem ((c.tc : Thread nD τ).loc main_v28)
        = matProd (agg m c (reluProd (agg m c (m ((c.tc : Thread nD τ).loc main_arg0))) (m ((c.tc : Thread nD τ).loc main_arg4))))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (layers_eq m c _ _ _), (h c).2⟩)
    (Cert.ReferenceIdeal.Value.run (F := Ideal) m ρ)

end Cert.ReferenceIdeal.Whole

end
-- ==== Proof.lean ====
/-
  A two-layer graph convolution: `out = A · relu(A · x · W1) · W2`, with `A · –` the sparse aggregation over the
  edges (gather the rows at the column indices, scale by the edge values, add into the rows the row indices name).

  The kernel program computes the two aggregations on the host and the two dense products on the accelerator, ten
  blocks of 5000 rows each, the first product clamped below at zero in the kernel body; the reference computes all
  of it on the host. Over the extended reals a change of float format is the identity and every product of matrices,
  the accelerator's into a zero accumulator or the host's, has at (o, t) the entry `∑ c, A[o, c] · W[c, t]`; a row of
  the product depends only on that row of the left operand, so the blocks written point by point assemble to the
  product of the whole arrays. The aggregation is the same host computation in both programs and is carried as one
  function, never opened. So both programs end with the result array at
  `matProd (agg (reluProd (agg x) W1)) W2` of their arguments: no law of arithmetic beyond reading each product as
  its sum is used, and the precondition is not needed.
-/
import proofs.«166620_j34660386078859_1_alg».proof.Defs
import proofs.«166620_j34660386078859_1_alg».proof.Proof.Gen.Kernel
import proofs.«166620_j34660386078859_1_alg».proof.Proof.Gen.Kernel.Skeleton
import proofs.«166620_j34660386078859_1_alg».proof.Proof.Gen.Kernel.Launch
import proofs.«166620_j34660386078859_1_alg».proof.Proof.Gen.Kernel.Points
import proofs.«166620_j34660386078859_1_alg».proof.Proof.Gen.Kernel.Frame
import proofs.«166620_j34660386078859_1_alg».proof.Proof.Gen.KernelIdeal
import proofs.«166620_j34660386078859_1_alg».proof.Proof.Gen.KernelIdeal.Skeleton
import proofs.«166620_j34660386078859_1_alg».proof.Proof.Gen.KernelIdeal.Launch
import proofs.«166620_j34660386078859_1_alg».proof.Proof.Gen.KernelIdeal.Points
import proofs.«166620_j34660386078859_1_alg».proof.Proof.Gen.KernelIdeal.Frame
import proofs.«166620_j34660386078859_1_alg».proof.Proof.Gen.ReferenceIdeal
import proofs.«166620_j34660386078859_1_alg».proof.Proof.Gen.ReferenceIdeal.Run
import proofs.«166620_j34660386078859_1_alg».proof.Proof.Gen.Pre_finite_inputs
import proofs.«166620_j34660386078859_1_alg».proof.Proof.KernelValue
import proofs.«166620_j34660386078859_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at `matProd (agg (reluProd (agg x) W1)) W2` of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨a0, a1, a2, a3, a4, a5⟩ := hagree c
  unfold Cert.ReferenceIdeal.Whole.agg Cert.KernelIdeal.Whole.agg
  rw [a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
